-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S50000x10 : Shape := ⟨2, ![50000, 10]⟩
abbrev S50000 : Shape := ⟨1, ![50000]⟩
abbrev S1024x512 : Shape := ⟨2, ![1024, 512]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_

variable [Facts]

def fn {F : FTy → Type} [FloatOps F] (main_arg0 : FVec F S100000x512 .f32) (main_arg1 : IVec S50000x10 32) (main_arg2 : IVec S50000 32) (main_arg3 : FVec F S1024x512 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S1024x512 .f32 := Host.absf main_arg3
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  main_v8
-- ==== Kernel.lean ====
abbrev S100000x512 : Shape := ⟨2, ![100000, 512]⟩
abbrev S50000x10 : Shape := ⟨2, ![50000, 10]⟩
abbrev S50000 : Shape := ⟨1, ![50000]⟩
abbrev S1024x512 : Shape := ⟨2, ![1024, 512]⟩
abbrev S_ : Shape := ⟨0, ![]⟩
abbrev S50000x10x1 : Shape := ⟨3, ![50000, 10, 1]⟩
abbrev S50000x10x512 : Shape := ⟨3, ![50000, 10, 512]⟩
abbrev S50000x512 : Shape := ⟨2, ![50000, 512]⟩
abbrev S50000x1 : Shape := ⟨2, ![50000, 1]⟩
abbrev S512x512 : Shape := ⟨2, ![512, 512]⟩
abbrev S2000x512 : Shape := ⟨2, ![2000, 512]⟩

abbrev nBuf : Space → Nat
  | .hbm => 35
  | .vmem => 8
  | .smem => 0
  | _ => 0

abbrev bufTy : (tb : Table) → Fin (tcTables nBuf tb) → BufTy
  | .hbm, ⟨0, _⟩ => ⟨S100000x512, .f32⟩
  | .hbm, ⟨1, _⟩ => ⟨S50000x10, .i32⟩
  | .hbm, ⟨2, _⟩ => ⟨S50000, .i32⟩
  | .hbm, ⟨3, _⟩ => ⟨S1024x512, .f32⟩
  | .hbm, ⟨4, _⟩ => ⟨S100000x512, .bf16⟩
  | .hbm, ⟨5, _⟩ => ⟨S_, .i32⟩
  | .hbm, ⟨6, _⟩ => ⟨S50000x10, .i32⟩
  | .hbm, ⟨7, _⟩ => ⟨S50000x10, .i1⟩
  | .hbm, ⟨8, _⟩ => ⟨S_, .i32⟩
  | .hbm, ⟨9, _⟩ => ⟨S50000x10, .i32⟩
  | .hbm, ⟨10, _⟩ => ⟨S50000x10, .i32⟩
  | .hbm, ⟨11, _⟩ => ⟨S50000x10, .i32⟩
  | .hbm, ⟨12, _⟩ => ⟨S50000x10x1, .i32⟩
  | .hbm, ⟨13, _⟩ => ⟨S50000x10x512, .bf16⟩
  | .hbm, ⟨14, _⟩ => ⟨S50000x10x512, .f32⟩
  | .hbm, ⟨15, _⟩ => ⟨S_, .f32⟩
  | .hbm, ⟨16, _⟩ => ⟨S50000x512, .f32⟩
  | .hbm, ⟨17, _⟩ => ⟨S_, .f32⟩
  | .hbm, ⟨18, _⟩ => ⟨S50000x512, .f32⟩
  | .hbm, ⟨19, _⟩ => ⟨S50000x512, .f32⟩
  | .hbm, ⟨20, _⟩ => ⟨S50000x512, .bf16⟩
  | .hbm, ⟨21, _⟩ => ⟨S_, .i32⟩
  | .hbm, ⟨22, _⟩ => ⟨S50000, .i32⟩
  | .hbm, ⟨23, _⟩ => ⟨S50000, .i1⟩
  | .hbm, ⟨24, _⟩ => ⟨S_, .i32⟩
  | .hbm, ⟨25, _⟩ => ⟨S50000, .i32⟩
  | .hbm, ⟨26, _⟩ => ⟨S50000, .i32⟩
  | .hbm, ⟨27, _⟩ => ⟨S50000, .i32⟩
  | .hbm, ⟨28, _⟩ => ⟨S50000x1, .i32⟩
  | .hbm, ⟨29, _⟩ => ⟨S50000x512, .bf16⟩
  | .hbm, ⟨30, _⟩ => ⟨S512x512, .f32⟩
  | .hbm, ⟨31, _⟩ => ⟨S512x512, .bf16⟩
  | .hbm, ⟨32, _⟩ => ⟨S512x512, .f32⟩
  | .hbm, ⟨33, _⟩ => ⟨S512x512, .bf16⟩
  | .hbm, ⟨34, _⟩ => ⟨S50000x512, .f32⟩
  | .local _ .vmem, ⟨0, _⟩ => ⟨S2000x512, .bf16⟩
  | .local _ .vmem, ⟨1, _⟩ => ⟨S2000x512, .bf16⟩
  | .local _ .vmem, ⟨2, _⟩ => ⟨S2000x512, .bf16⟩
  | .local _ .vmem, ⟨3, _⟩ => ⟨S2000x512, .bf16⟩
  | .local _ .vmem, ⟨4, _⟩ => ⟨S512x512, .bf16⟩
  | .local _ .vmem, ⟨5, _⟩ => ⟨S512x512, .bf16⟩
  | .local _ .vmem, ⟨6, _⟩ => ⟨S2000x512, .f32⟩
  | .local _ .vmem, ⟨7, _⟩ => ⟨S2000x512, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  bcast_S_S50000x10 : S_.BroadcastsInDim S50000x10 (![] : Fin 0 → Fin S50000x10.rank)
  bcast_S50000x10_S50000x10x1_0_1 : S50000x10.BroadcastsInDim S50000x10x1 (![0, 1] : Fin 2 → Fin S50000x10x1.rank)
  reducesTo_S50000x10x512_S50000x512_d1 : S50000x10x512.ReducesTo [1] S50000x512
  h_S_ : 0 < S_.numel
  bcast_S_S50000x512 : S_.BroadcastsInDim S50000x512 (![] : Fin 0 → Fin S50000x512.rank)
  bcast_S_S50000 : S_.BroadcastsInDim S50000 (![] : Fin 0 → Fin S50000.rank)
  bcast_S50000_S50000x1_0 : S50000.BroadcastsInDim S50000x1 (![0] : Fin 1 → Fin S50000x1.rank)
  slices_S1024x512_S512x512_0_0 : S1024x512.Slices ![0, 0] S512x512
  slices_S1024x512_S512x512_512_0 : S1024x512.Slices ![512, 0] S512x512
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  gather_S100000x512_S50000x10x1_S50000x10x512_2_0_n_n_0_2_1512_wf : GatherDims.WF S100000x512 S50000x10x1 S50000x10x512 [2] [0] [] [0] [] 2 ![1, 512]
  gather_S100000x512_S50000x1_S50000x512_1_0_n_n_0_1_1512_wf : GatherDims.WF S100000x512 S50000x1 S50000x512 [1] [0] [] [0] [] 1 ![1, 512]
  dot_S2000x512_S512x512_S2000x512_1_0_0_1_n_n_wf : DotDims.WF S2000x512 S512x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .bf16 = 32 ∨ (Rect.block (s := S50000x512) S2000x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x512.size a ≤ S50000x512.size a
  hwx0_1 : ∀ i : grid0.Coords, EltTy.bits .bf16 = 32 ∨ (Rect.block (s := S50000x512) S2000x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x512.size a ≤ S50000x512.size a
  hwx0_4 : ∀ i : grid0.Coords, EltTy.bits .f32 = 32 ∨ (Rect.block (s := S50000x512) S2000x512.size (cc0_transform_4 i) (hinb0_4 i)).WholeWords (EltTy.packing .f32)

variable [Facts₀]

def gather_S100000x512_S50000x10x1_S50000x10x512_2_0_n_n_0_2_1512 : GatherDims S100000x512 S50000x10x1 S50000x10x512 where
  offsetDims := [2]
  collapsedSliceDims := [0]
  operandBatchingDims := []
  startIndicesBatchingDims := []
  startIndexMap := [0]
  indexVectorDim := 2
  sliceSizes := ![1, 512]
  wf := gather_S100000x512_S50000x10x1_S50000x10x512_2_0_n_n_0_2_1512_wf
def gather_S100000x512_S50000x1_S50000x512_1_0_n_n_0_1_1512 : GatherDims S100000x512 S50000x1 S50000x512 where
  offsetDims := [1]
  collapsedSliceDims := [0]
  operandBatchingDims := []
  startIndicesBatchingDims := []
  startIndexMap := [0]
  indexVectorDim := 1
  sliceSizes := ![1, 512]
  wf := gather_S100000x512_S50000x1_S50000x512_1_0_n_n_0_1_1512_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf

abbrev win0_0 : Pipeline.Window sig grid0 :=
  Pipeline.Window.ofSpec (Memref.whole main_v19) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S2000x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x512 : Shape := ⟨2, ![100000, 512]⟩
abbrev S50000x10 : Shape := ⟨2, ![50000, 10]⟩
abbrev S50000 : Shape := ⟨1, ![50000]⟩
abbrev S1024x512 : Shape := ⟨2, ![1024, 512]⟩
abbrev S_ : Shape := ⟨0, ![]⟩
abbrev S50000x10x1 : Shape := ⟨3, ![50000, 10, 1]⟩
abbrev S50000x10x512 : Shape := ⟨3, ![50000, 10, 512]⟩
abbrev S50000x512 : Shape := ⟨2, ![50000, 512]⟩
abbrev S50000x1 : Shape := ⟨2, ![50000, 1]⟩
abbrev S50000x1024 : Shape := ⟨2, ![50000, 1024]⟩

abbrev nBuf : Space → Nat
  | .hbm => 32
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S50000x10, .i32⟩
  | .hbm, ⟨2, _⟩ => ⟨S50000, .i32⟩
  | .hbm, ⟨3, _⟩ => ⟨S1024x512, .f32⟩
  | .hbm, ⟨4, _⟩ => ⟨S_, .i32⟩
  | .hbm, ⟨5, _⟩ => ⟨S50000x10, .i32⟩
  | .hbm, ⟨6, _⟩ => ⟨S50000x10, .i1⟩
  | .hbm, ⟨7, _⟩ => ⟨S_, .i32⟩
  | .hbm, ⟨8, _⟩ => ⟨S50000x10, .i32⟩
  | .hbm, ⟨9, _⟩ => ⟨S50000x10, .i32⟩
  | .hbm, ⟨10, _⟩ => ⟨S50000x10, .i32⟩
  | .hbm, ⟨11, _⟩ => ⟨S50000x10x1, .i32⟩
  | .hbm, ⟨12, _⟩ => ⟨S50000x10x512, .f32⟩
  | .hbm, ⟨13, _⟩ => ⟨S_, .f32⟩
  | .hbm, ⟨14, _⟩ => ⟨S50000x512, .f32⟩
  | .hbm, ⟨15, _⟩ => ⟨S_, .f32⟩
  | .hbm, ⟨16, _⟩ => ⟨S50000x512, .f32⟩
  | .hbm, ⟨17, _⟩ => ⟨S50000x512, .f32⟩
  | .hbm, ⟨18, _⟩ => ⟨S_, .i32⟩
  | .hbm, ⟨19, _⟩ => ⟨S50000, .i32⟩
  | .hbm, ⟨20, _⟩ => ⟨S50000, .i1⟩
  | .hbm, ⟨21, _⟩ => ⟨S_, .i32⟩
  | .hbm, ⟨22, _⟩ => ⟨S50000, .i32⟩
  | .hbm, ⟨23, _⟩ => ⟨S50000, .i32⟩
  | .hbm, ⟨24, _⟩ => ⟨S50000, .i32⟩
  | .hbm, ⟨25, _⟩ => ⟨S50000x1, .i32⟩
  | .hbm, ⟨26, _⟩ => ⟨S50000x512, .f32⟩
  | .hbm, ⟨27, _⟩ => ⟨S50000x1024, .f32⟩
  | .hbm, ⟨28, _⟩ => ⟨S50000x512, .f32⟩
  | .hbm, ⟨29, _⟩ => ⟨S_, .f32⟩
  | .hbm, ⟨30, _⟩ => ⟨S50000x512, .f32⟩
  | .hbm, ⟨31, _⟩ => ⟨S50000x512, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_c_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_cst : Ref sig .tc := ⟨.hbm, 29, rfl⟩
abbrev main_call0_v0 : Ref sig .tc := ⟨.hbm, 30, rfl⟩
abbrev main_v19 : Ref sig .tc := ⟨.hbm, 31, rfl⟩

abbrev nD : Nat := 1
abbrev τ : Topo := Topo.v7x

variable {F : FTy → Type} [FloatOps F]

class Facts₀ : Prop where
  bcast_S_S50000x10 : S_.BroadcastsInDim S50000x10 (![] : Fin 0 → Fin S50000x10.rank)
  bcast_S50000x10_S50000x10x1_0_1 : S50000x10.BroadcastsInDim S50000x10x1 (![0, 1] : Fin 2 → Fin S50000x10x1.rank)
  reducesTo_S50000x10x512_S50000x512_d1 : S50000x10x512.ReducesTo [1] S50000x512
  h_S_ : 0 < S_.numel
  bcast_S_S50000x512 : S_.BroadcastsInDim S50000x512 (![] : Fin 0 → Fin S50000x512.rank)
  bcast_S_S50000 : S_.BroadcastsInDim S50000 (![] : Fin 0 → Fin S50000.rank)
  bcast_S50000_S50000x1_0 : S50000.BroadcastsInDim S50000x1 (![0] : Fin 1 → Fin S50000x1.rank)
  concatenates_S50000x512_S50000x512_S50000x1024_d1 : Shape.Concatenates [S50000x512, S50000x512] S50000x1024 1
  gather_S100000x512_S50000x10x1_S50000x10x512_2_0_n_n_0_2_1512_wf : GatherDims.WF S100000x512 S50000x10x1 S50000x10x512 [2] [0] [] [0] [] 2 ![1, 512]
  gather_S100000x512_S50000x1_S50000x512_1_0_n_n_0_1_1512_wf : GatherDims.WF S100000x512 S50000x1 S50000x512 [1] [0] [] [0] [] 1 ![1, 512]
  dot_S50000x1024_S1024x512_S50000x512_1_0_0_1_n_n_wf : DotDims.WF S50000x1024 S1024x512 S50000x512 [1] [0] [0] [1] [] []

variable [Facts₀]

def gather_S100000x512_S50000x10x1_S50000x10x512_2_0_n_n_0_2_1512 : GatherDims S100000x512 S50000x10x1 S50000x10x512 where
  offsetDims := [2]
  collapsedSliceDims := [0]
  operandBatchingDims := []
  startIndicesBatchingDims := []
  startIndexMap := [0]
  indexVectorDim := 2
  sliceSizes := ![1, 512]
  wf := gather_S100000x512_S50000x10x1_S50000x10x512_2_0_n_n_0_2_1512_wf
def gather_S100000x512_S50000x1_S50000x512_1_0_n_n_0_1_1512 : GatherDims S100000x512 S50000x1 S50000x512 where
  offsetDims := [1]
  collapsedSliceDims := [0]
  operandBatchingDims := []
  startIndicesBatchingDims := []
  startIndexMap := [0]
  indexVectorDim := 1
  sliceSizes := ![1, 512]
  wf := gather_S100000x512_S50000x1_S50000x512_1_0_n_n_0_1_1512_wf
def dot_S50000x1024_S1024x512_S50000x512_1_0_0_1_n_n : DotDims S50000x1024 S1024x512 S50000x512 where
  lhsContracting := [1]
  rhsContracting := [0]
  lhsNonContracting := [0]
  rhsNonContracting := [1]
  lhsBatch := []
  rhsBatch := []
  wf := dot_S50000x1024_S1024x512_S50000x512_1_0_0_1_n_n_wf

class Facts : Prop extends Facts₀ where

variable [Facts]
-- ==== Proof.Spec.lean ====
/-
  The common value of the two programs, as one function of three arrays.

  Both programs first form, on the host, a [50000, 512] array `A` of "self" rows (row `b` is the table row the
  batch index names) and a [50000, 512] array `B` of neighbour means (row `b` is the mean of ten table rows), and
  then combine them with the [1024, 512] weight matrix `W`.  The reference joins `A` and `B` side by side into a
  [50000, 1024] array and multiplies it by `W`; the kernel multiplies `A` by the upper half of `W` and `B` by the
  lower half and adds the two products.  Over the extended reals the two agree because a sum over 1024 terms is the
  sum of its first 512 terms plus the sum of its last 512 — associativity and commutativity of addition only, so no
  finiteness of the inputs is used.  Both then take the maximum with zero.
-/
import Idealize.ShloMosaic.Lib.ValueIdx
import Idealize.ShloMosaic.PureOps.Ideal.Laws

noncomputable section

open scoped BigOperators

namespace Cert.Spec

open Idealize.ShloMosaic Idealize.ShloMosaic.ValueIdx

/-- The shapes of the three arrays the result is a function of, and of the result. -/
abbrev SRows : Shape := ⟨2, ![50000, 512]⟩
abbrev SWeight : Shape := ⟨2, ![1024, 512]⟩

/-- Row `k` of the upper half of the weight matrix. -/
abbrev upper (k : Fin 512) : Fin 1024 := ⟨k.val, by have := k.isLt; omega⟩
/-- Row `k` of the lower half of the weight matrix. -/
abbrev lower (k : Fin 512) : Fin 1024 := ⟨512 + k.val, by have := k.isLt; omega⟩

/-- Entry `(p, q)` of the result: `max (∑ₖ A[p,k]·W[k,q] + ∑ₖ B[p,k]·W[512+k,q]) 0`. -/
def entry (A B : SRows.Idx → EReal) (W : SWeight.Idx → EReal) (p : Fin 50000) (q : Fin 512) : EReal :=
  max ((∑ k : Fin 512, A (ix2 p k) * W (ix2 (upper k) q)) + ∑ k : Fin 512, B (ix2 p k) * W (ix2 (lower k) q)) 0

/-- The result array. -/
def G (A B : SRows.Idx → EReal) (W : SWeight.Idx → EReal) : SRows.Idx → EReal :=
  fun i => entry A B W ⟨(i 0).val, (i 0).isLt⟩ ⟨(i 1).val, (i 1).isLt⟩

theorem G_ix2 (A B : SRows.Idx → EReal) (W : SWeight.Idx → EReal) (p : Fin 50000) (q : Fin 512) :
    G A B W (ix2 p q) = entry A B W p q := rfl

/-- The shape of one half of the weight matrix. -/
abbrev SHalf : Shape := ⟨2, ![512, 512]⟩

/-- The same entry with the two halves of the weight matrix given as separate [512, 512] arrays `U` and `V`:
    `max (∑ₖ A[p,k]·U[k,q] + ∑ₖ B[p,k]·V[k,q]) 0`. -/
def entryHalves (A B : SRows.Idx → EReal) (U V : SHalf.Idx → EReal) (p : Fin 50000) (q : Fin 512) : EReal :=
  max ((∑ k : Fin 512, A (ix2 p k) * U (ix2 k q)) + ∑ k : Fin 512, B (ix2 p k) * V (ix2 k q)) 0

/-- The result array over separate halves. -/
def GHalves (A B : SRows.Idx → EReal) (U V : SHalf.Idx → EReal) : SRows.Idx → EReal :=
  fun i => entryHalves A B U V ⟨(i 0).val, (i 0).isLt⟩ ⟨(i 1).val, (i 1).isLt⟩

/-- When `U` and `V` are the upper and lower halves of `W`, the two forms are one array. -/
theorem GHalves_eq_G (A B : SRows.Idx → EReal) (U V : SHalf.Idx → EReal) (W : SWeight.Idx → EReal)
    (hU : ∀ (k q : Fin 512), U (ix2 k q) = W (ix2 (upper k) q)) (hV : ∀ (k q : Fin 512), V (ix2 k q) = W (ix2 (lower k) q)) :
    GHalves A B U V = G A B W := by
  funext i
  unfold GHalves G entryHalves entry
  simp only [hU, hV]

/-- A sum of 1024 terms is the sum of the first 512 plus the sum of the last 512. -/
theorem sum_halves {M : Type*} [AddCommMonoid M] (f : Fin 1024 → M) :
    ∑ k : Fin 1024, f k = (∑ k : Fin 512, f (upper k)) + ∑ k : Fin 512, f (lower k) := by
  have h := Fin.sum_univ_add (a := 512) (b := 512) f
  refine h.trans ?_
  congr 1

end Cert.Spec

end
-- ==== Proof.RefIsSpec.lean ====
/-
  The reference's result, stage by stage, is the common function `Cert.Spec.G` of its own "self" rows, its own
  neighbour means and the weight matrix: the product of the side-by-side join with the weight matrix is a sum of 1024
  terms whose first 512 read the self rows against the upper half of the weights and whose last 512 read the means
  against the lower half.
-/
import proofs.«417036_j67920612819026_3_alg».proof.Proof.Gen.ReferenceIdeal.Read
import proofs.«417036_j67920612819026_3_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

variable (x0 : (⟨S100000x512, .f32⟩ : BufTy).Contents (Elt Ideal)) (x1 : (⟨S50000x10, .i32⟩ : BufTy).Contents (Elt Ideal))
  (x2 : (⟨S50000, .i32⟩ : BufTy).Contents (Elt Ideal)) (x3 : (⟨S1024x512, .f32⟩ : BufTy).Contents (Elt Ideal))

/-- In its first 512 columns the join reads the self rows. -/
theorem join_upper (p : Fin 50000) (q : Fin 512) (k : Fin 512) :
    val_main_v17 (F := Ideal) x0 x1 x2 (lidx_main_v18 (ix2 p q) (Cert.Spec.upper k)) = val_main_v16 (F := Ideal) x0 x2 (ix2 p k) := by
  unfold val_main_v17
  refine concatenate_pair_apply_left (t := S50000x1024) (s₁ := S50000x512) (s₂ := S50000x512) (1 : Fin 2) _ _ concatenates_S50000x512_S50000x512_S50000x1024_d1 _ rfl (ix2 p k) ?_
  intro b
  match b with
  | ⟨0, _⟩ => rfl
  | ⟨1, _⟩ => rfl

/-- In its last 512 columns the join reads the neighbour means, 512 columns back. -/
theorem join_lower (p : Fin 50000) (q : Fin 512) (k : Fin 512) :
    val_main_v17 (F := Ideal) x0 x1 x2 (lidx_main_v18 (ix2 p q) (Cert.Spec.lower k)) = val_main_v9 (F := Ideal) x0 x1 (ix2 p k) := by
  unfold val_main_v17
  refine concatenate_pair_apply_right (t := S50000x1024) (s₁ := S50000x512) (s₂ := S50000x512) (1 : Fin 2) _ _ concatenates_S50000x512_S50000x512_S50000x1024_d1 _ rfl rfl (ix2 p k) ?_ ?_
  · intro b hb
    match b with
    | ⟨0, _⟩ => rfl
    | ⟨1, _⟩ => exact absurd rfl hb
  · show k.val + 512 = 512 + k.val
    omega

/-- The weight entry the product's term `k` reads. -/
theorem weight_at (p : Fin 50000) (q : Fin 512) (k : Fin 1024) : ridx_main_v18 (ix2 p q) k = ix2 k q :=
  funext fun a => Fin.ext (by match a with | ⟨0, _⟩ => rfl | ⟨1, _⟩ => rfl)

/-- The reference's result is `G` of its self rows, its neighbour means and the weights. -/
theorem ref_eq : val_main_v19 (F := Ideal) x0 x1 x2 x3
    = Cert.Spec.G (val_main_v16 (F := Ideal) x0 x2) (val_main_v9 (F := Ideal) x0 x1) x3 := by
  funext i
  obtain ⟨p, q, rfl⟩ : ∃ (p : Fin 50000) (q : Fin 512), i = ix2 p q := ⟨i 0, i 1, eq_ix2 i⟩
  rw [val_main_v19_apply, val_main_v18_apply, val_main_call0_v0_apply, val_main_call0_cst_apply, Cert.Spec.sum_halves,
    Cert.Spec.G_ix2]
  unfold Cert.Spec.entry
  simp only [join_upper, join_lower, weight_at]
  rw [Ideal.maximumf_def, Ideal.ofBits_def, Ideal.ofBits_zero_f32]

end Cert.ReferenceIdeal.RefValue

end
-- ==== Proof.Payload.lean ====
/-
  The kernel body's stored value, read at one entry of its [2000, 512] block: the two matrix products into a zero
  accumulator are plain sums over the 512 contracted positions, their sum is taken, then the maximum with zero.
-/
import proofs.«417036_j67920612819026_3_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The row of the left operand a product's term reads is the output's row … -/
theorem lhs_row (i : S2000x512.Idx) (r : dot_S2000x512_S512x512_S2000x512_1_0_0_1_n_n.contr.Idx) :
    (dot_S2000x512_S512x512_S2000x512_1_0_0_1_n_n.lhsIdx i r 0).val = (i 0).val := by
  unfold DotDims.lhsIdx
  rw [dif_neg (show ¬(0 : Fin S2000x512.rank) ∈ dot_S2000x512_S512x512_S2000x512_1_0_0_1_n_n.lhsBatch by decide), dif_pos (show (0 : Fin S2000x512.rank) ∈ dot_S2000x512_S512x512_S2000x512_1_0_0_1_n_n.lhsNonContracting by decide)]
  rfl
/-- … and its column the contracted position; -/
theorem lhs_col (i : S2000x512.Idx) (r : dot_S2000x512_S512x512_S2000x512_1_0_0_1_n_n.contr.Idx) :
    (dot_S2000x512_S512x512_S2000x512_1_0_0_1_n_n.lhsIdx i r 1).val = (r ⟨0, by decide⟩).val :=
  dot_S2000x512_S512x512_S2000x512_1_0_0_1_n_n.lhsIdx_val_of_single rfl i r
/-- the row of the right operand is the contracted position … -/
theorem rhs_row (i : S2000x512.Idx) (r : dot_S2000x512_S512x512_S2000x512_1_0_0_1_n_n.contr.Idx) :
    (dot_S2000x512_S512x512_S2000x512_1_0_0_1_n_n.rhsIdx i r 0).val = (r ⟨0, by decide⟩).val :=
  dot_S2000x512_S512x512_S2000x512_1_0_0_1_n_n.rhsIdx_val_of_single rfl i r
/-- … and its column the output's column. -/
theorem rhs_col (i : S2000x512.Idx) (r : dot_S2000x512_S512x512_S2000x512_1_0_0_1_n_n.contr.Idx) :
    (dot_S2000x512_S512x512_S2000x512_1_0_0_1_n_n.rhsIdx i r 1).val = (i 1).val := by
  unfold DotDims.rhsIdx
  rw [dif_neg (show ¬(1 : Fin S512x512.rank) ∈ dot_S2000x512_S512x512_S2000x512_1_0_0_1_n_n.rhsBatch by decide), dif_pos (show (1 : Fin S512x512.rank) ∈ dot_S2000x512_S512x512_S2000x512_1_0_0_1_n_n.rhsNonContracting by decide)]
  rfl

/-- A [2000, 512] × [512, 512] product into the zero accumulator, at entry `(p, q)`, is `∑ₖ l[p,k]·r[k,q]`. -/
theorem product_apply (l : FVec Ideal S2000x512 .bf16) (r : FVec Ideal S512x512 .bf16) (p : Fin 2000) (q : Fin 512) :
    matmul dot_S2000x512_S512x512_S2000x512_1_0_0_1_n_n none l r (constant S2000x512 .f32 0x00000000#32) (ix2 p q)
      = ∑ k : Fin 512, l (ix2 p k) * r (ix2 k q) := by
  simp only [matmul]
  rw [Ideal.matmul_constant_zero_apply, ← Equiv.sum_comp (contrEquiv1 dot_S2000x512_S512x512_S2000x512_1_0_0_1_n_n 512 rfl rfl).symm]
  refine Finset.sum_congr rfl fun k _ => ?_
  have hk := contrEquiv1_symm_val dot_S2000x512_S512x512_S2000x512_1_0_0_1_n_n 512 rfl rfl k
  have el : dot_S2000x512_S512x512_S2000x512_1_0_0_1_n_n.lhsIdx (ix2 p q) ((contrEquiv1 dot_S2000x512_S512x512_S2000x512_1_0_0_1_n_n 512 rfl rfl).symm k) = ix2 p k := funext fun a => Fin.ext (by
    match a with
    | ⟨0, _⟩ => exact lhs_row _ _
    | ⟨1, _⟩ => exact (lhs_col _ _).trans hk)
  have er : dot_S2000x512_S512x512_S2000x512_1_0_0_1_n_n.rhsIdx (ix2 p q) ((contrEquiv1 dot_S2000x512_S512x512_S2000x512_1_0_0_1_n_n 512 rfl rfl).symm k) = ix2 k q := funext fun a => Fin.ext (by
    match a with
    | ⟨0, _⟩ => exact (rhs_row _ _).trans hk
    | ⟨1, _⟩ => exact rhs_col _ _)
  rw [el, er]

/-- The stored value at entry `(p, q)` of the block: `max (∑ₖ a[p,k]·u[k,q] + ∑ₖ b[p,k]·v[k,q]) 0`, where `a`, `b` are the
    two [2000, 512] operand blocks and `u`, `v` the two [512, 512] weight halves. -/
theorem stored_apply (a : Vec Ideal S2000x512 .bf16) (u : Vec Ideal S512x512 .bf16) (b : Vec Ideal S2000x512 .bf16)
    (v : Vec Ideal S512x512 .bf16) (p : Fin 2000) (q : Fin 512) :
    k0_pay1 (F := Ideal) a u b v (ix2 p q)
      = max ((∑ k : Fin 512, a (ix2 p k) * u (ix2 k q)) + ∑ k : Fin 512, b (ix2 p k) * v (ix2 k q)) 0 := by
  unfold k0_pay1
  rw [maximumf_apply, addf_apply, shapeCast_self, shapeCast_self, shapeCast_self, shapeCast_self, product_apply, product_apply,
    broadcast_apply]
  rw [Ideal.ofBits_def, Ideal.ofBits_zero_f32]

end Cert.KernelIdeal.Body

end
-- ==== Proof.Blocks.lean ====
/-
  From the blocks the grid points write to the whole result array.  Grid point `t` (of 25) writes rows
  `2000·t … 2000·t + 1999` of the [50000, 512] result; its two operand blocks are the same rows of the two [50000, 512]
  operand arrays, and its two weight blocks are the two whole [512, 512] weight halves.  So what point `t` writes is
  block `t` of ONE array, `Cert.Spec.GHalves` of the four arrays the region finds; the 25 blocks tile the result, so
  after the run the result array is that function.
-/
import proofs.«417036_j67920612819026_3_alg».proof.Proof.Gen.KernelIdeal.Value
import proofs.«417036_j67920612819026_3_alg».proof.Proof.Payload
import proofs.«417036_j67920612819026_3_alg».proof.Proof.Spec

set_option maxRecDepth 16384

noncomputable section

open scoped BigOperators

namespace Cert.KernelIdeal.Blocks

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

/-- The body's stored block is the block of `GHalves` its rows name: if the operand blocks `a`, `b` are the operand
    arrays `A`, `B` read through a placement `e` of the block in the array that keeps columns and sends equal rows to
    equal rows, and the weight blocks are the whole halves. -/
theorem stored_eq (A B : Cert.Spec.SRows.Idx → EReal) (U V : Cert.Spec.SHalf.Idx → EReal)
    (a b : Vec Ideal S2000x512 .bf16) (u v : Vec Ideal S512x512 .bf16) (e : S2000x512.Idx → S50000x512.Idx)
    (hcol : ∀ y, (e y 1).val = (y 1).val) (hrow : ∀ y y', y 0 = y' 0 → e y 0 = e y' 0)
    (ha : ∀ y, a y = A (e y)) (hb : ∀ y, b y = B (e y)) (hu : u = U) (hv : v = V) (j : S2000x512.Idx) :
    k0_pay1 (F := Ideal) a u b v j = Cert.Spec.GHalves A B U V (e j) := by
  obtain ⟨p, q, rfl⟩ : ∃ (p : Fin 2000) (q : Fin 512), j = ix2 p q := ⟨j 0, j 1, eq_ix2 j⟩
  rw [Cert.KernelIdeal.Body.stored_apply]
  subst hu hv
  unfold Cert.Spec.GHalves Cert.Spec.entryHalves
  obtain ⟨r, hr⟩ : ∃ r : Fin 50000, e (ix2 p q) 0 = r := ⟨_, rfl⟩
  have hk : ∀ k : Fin 512, e (ix2 p k) = ix2 r k := fun k =>
    funext fun d => Fin.ext (by
      match d with
      | ⟨0, _⟩ => exact congrArg Fin.val ((hrow (ix2 p k) (ix2 p q) rfl).trans hr)
      | ⟨1, _⟩ => exact hcol (ix2 p k))
  have h0 : (⟨(e (ix2 p q) 0).val, (e (ix2 p q) 0).isLt⟩ : Fin 50000) = r := Fin.ext (congrArg Fin.val hr)
  have hq : (⟨(e (ix2 p q) 1).val, (e (ix2 p q) 1).isLt⟩ : Fin 512) = q := Fin.ext (hcol (ix2 p q))
  rw [h0, hq]
  simp only [ha, hb, hk]

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps over the 25 points: the two operand windows move with the output window, the two weight
    windows stay at block (0, 0), and the output's block row is below 25 and its block column is 0. -/
theorem index_facts : ∀ t : Fin cfg0.N, win0_0.index t (0 : Fin 2) = win0_4.index t (0 : Fin 2)
    ∧ win0_0.index t (1 : Fin 2) = win0_4.index t (1 : Fin 2)
    ∧ win0_1.index t (0 : Fin 2) = win0_4.index t (0 : Fin 2)
    ∧ win0_1.index t (1 : Fin 2) = win0_4.index t (1 : Fin 2)
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) ≤ 24 ∧ win0_4.index t (1 : Fin 2) = 0 :=
  (by decide +kernel : ∀ t : Fin grid0.N, _)

/-- Every block row is some point's. -/
theorem index_onto : ∀ r : Fin 25, ∃ t : Fin cfg0.N, win0_4.index t = ![r.val, 0] :=
  (by decide +kernel : ∀ r : Fin 25, ∃ t : Fin grid0.N, win0_4.index t = ![r.val, 0])

/-- The four arrays the region finds, at their literal types. -/
abbrev selfRows (c : Dev nD) : Cert.Spec.SRows.Idx → EReal := V m c main_v19
abbrev meanRows (c : Dev nD) : Cert.Spec.SRows.Idx → EReal := V m c main_v12
abbrev upperHalf (c : Dev nD) : Cert.Spec.SHalf.Idx → EReal := V m c main_v21
abbrev lowerHalf (c : Dev nD) : Cert.Spec.SHalf.Idx → EReal := V m c main_v23

/-- What point `t` writes back is block `t` of `GHalves` of the four arrays the region finds. -/
theorem flushed_eq (c : Dev nD) (t : Fin cfg0.N) :
    (dats m 0 c).flushed 4 t = ((cfg0.win 4).blk t).view.read (Elt Ideal)
      (Cert.Spec.GHalves (selfRows m c) (meanRows m c) (upperHalf m c) (lowerHalf m c)) := by
  rw [Value.flushed4]
  unfold out0_4
  rw [View.canon_unit_zero zero_offsets]
  simp only [View.ld_unit_zero (S := S2000x512) zero_offsets, View.ld_unit_zero (S := S512x512) zero_offsets]
  obtain ⟨e0, e1, e2, e3, e4, e5, e6, e7, e8, e9⟩ := index_facts t
  funext j
  show k0_pay1 (F := Ideal) (iblk m c 0 t) (iblk m c 2 t) (iblk m c 1 t) (iblk m c 3 t) j
    = Cert.Spec.GHalves (selfRows m c) (meanRows m c) (upperHalf m c) (lowerHalf m c) (((cfg0.win 4).blk t).view.emb j)
  refine stored_eq (selfRows m c) (meanRows m c) (upperHalf m c) (lowerHalf m c) (iblk m c 0 t) (iblk m c 1 t) (iblk m c 2 t) (iblk m c 3 t)
    (fun y => ((cfg0.win 4).blk t).view.emb y) ?_ ?_ ?_ ?_ ?_ ?_ j
  · intro y
    show win0_4.index t (1 : Fin 2) * 512 + 1 * (y 1).val = (y 1).val
    omega
  · intro y y' h
    apply Fin.ext
    show win0_4.index t (0 : Fin 2) * 2000 + 1 * (y 0).val = win0_4.index t (0 : Fin 2) * 2000 + 1 * (y' 0).val
    rw [h]
  · intro y
    show V m c main_v19 (((cfg0.win 0).blk t).view.emb y) = V m c main_v19 (((cfg0.win 4).blk t).view.emb y)
    refine congrArg (V m c main_v19) (funext fun a => Fin.ext ?_)
    match a with
    | ⟨0, _⟩ => show win0_0.index t (0 : Fin 2) * 2000 + 1 * (y 0).val = win0_4.index t (0 : Fin 2) * 2000 + 1 * (y 0).val; omega
    | ⟨1, _⟩ => show win0_0.index t (1 : Fin 2) * 512 + 1 * (y 1).val = win0_4.index t (1 : Fin 2) * 512 + 1 * (y 1).val; omega
  · intro y
    show V m c main_v12 (((cfg0.win 1).blk t).view.emb y) = V m c main_v12 (((cfg0.win 4).blk t).view.emb y)
    refine congrArg (V m c main_v12) (funext fun a => Fin.ext ?_)
    match a with
    | ⟨0, _⟩ => show win0_1.index t (0 : Fin 2) * 2000 + 1 * (y 0).val = win0_4.index t (0 : Fin 2) * 2000 + 1 * (y 0).val; omega
    | ⟨1, _⟩ => show win0_1.index t (1 : Fin 2) * 512 + 1 * (y 1).val = win0_4.index t (1 : Fin 2) * 512 + 1 * (y 1).val; omega
  · funext y
    show V m c main_v21 (((cfg0.win 2).blk t).view.emb y) = V m c main_v21 y
    refine congrArg (V m c main_v21) (funext fun a => Fin.ext ?_)
    match a with
    | ⟨0, _⟩ => show win0_2.index t (0 : Fin 2) * 512 + 1 * (y 0).val = (y 0).val; omega
    | ⟨1, _⟩ => show win0_2.index t (1 : Fin 2) * 512 + 1 * (y 1).val = (y 1).val; omega
  · funext y
    show V m c main_v23 (((cfg0.win 3).blk t).view.emb y) = V m c main_v23 y
    refine congrArg (V m c main_v23) (funext fun a => Fin.ext ?_)
    match a with
    | ⟨0, _⟩ => show win0_3.index t (0 : Fin 2) * 512 + 1 * (y 0).val = (y 0).val; omega
    | ⟨1, _⟩ => show win0_3.index t (1 : Fin 2) * 512 + 1 * (y 1).val = (y 1).val; omega

/-- An index of the result array is in point `t`'s block iff each coordinate is in the block's range. -/
theorem mem_block (t : Fin cfg0.N) (i : S50000x512.Idx) :
    i ∈ ((cfg0.win 4).blk t).view.set ↔ ∀ a : Fin 2, win0_4.index t a * S2000x512.size a ≤ (i a).val ∧ (i a).val < win0_4.index t a * S2000x512.size a + S2000x512.size a := by
  show i ∈ ((View.whole main_v24).slice (win0_4.rect t)).set ↔ _
  rw [View.set_slice_whole, Rect.mem_set_unit]
  exact Iff.rfl

/-- Every index of the result array is in the block of the point whose block row is its row divided by 2000. -/
theorem covered (i : S50000x512.Idx) : ∃ t : Fin cfg0.N, (cfg0.win 4).flush t = true ∧ i ∈ ((cfg0.win 4).blk t).view.set := by
  have hi0 : (i 0).val < 50000 := (i 0).isLt
  have hi1 : (i 1).val < 512 := (i 1).isLt
  obtain ⟨t, ht⟩ := index_onto ⟨(i 0).val / 2000, by omega⟩
  have q0 : win0_4.index t (0 : Fin 2) = (i 0).val / 2000 := congrFun ht 0
  have q1 : win0_4.index t (1 : Fin 2) = 0 := congrFun ht 1
  refine ⟨t, flush0_4 t, ?_⟩
  rw [mem_block]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 512 ≤ (i 1).val ∧ (i 1).val < win0_4.index t (1 : Fin 2) * 512 + 512; omega

/-- The result array after the run is `GHalves` of the four arrays the region finds. -/
theorem final (c : Dev nD) : (dats m 0 c).arrAt 4 cfg0.N
    = Cert.Spec.GHalves (selfRows m c) (meanRows m c) (upperHalf m c) (lowerHalf m c) :=
  (dats m 0 c).arrAt_eq_of_cover 4 (Cert.Spec.GHalves (selfRows m c) (meanRows m c) (upperHalf m c) (lowerHalf m c))
    (fun t _ => flushed_eq m c t) covered

/-- The kernel's run with its result array named as that function, the arguments unchanged. -/
theorem run : θ_run defs (onTc (τ := τ) (main (F := Ideal))) ⟨m, fun _ => 0, ρ⟩ fun r => ∀ c : Dev nD,
      r.2.mem ((c : Thread nD τ).loc main_v24) = Cert.Spec.GHalves (selfRows m c) (meanRows m c) (upperHalf m c) (lowerHalf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Blocks

end
-- ==== Proof.HostSide.lean ====
/-
  The four arrays the kernel's region finds, as functions of the arguments.  The host operations before the region
  build them from the arguments exactly as the reference builds its own self rows and neighbour means — the same row
  lookups with the same wrap-around of negative indices, the same sum over the ten neighbours, the same division by
  ten — with changes of float format in between, which are the identity on extended reals; and the two weight arrays
  are the upper and the lower 512 rows of the weight matrix.
-/
import proofs.«417036_j67920612819026_3_alg».proof.Proof.Gen.KernelIdeal.Frame
import proofs.«417036_j67920612819026_3_alg».proof.Proof.Gen.ReferenceIdeal.Read
import proofs.«417036_j67920612819026_3_alg».proof.Proof.Spec
import Idealize.ShloMosaic.Lib.StableHlo.Run
import Idealize.ShloMosaic.Lib.Pipeline.Value
import Idealize.ShloMosaic.Lib.ValueIdx

noncomputable section

namespace Cert.KernelIdeal.HostSide

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ)

set_option maxHeartbeats 2000000 in
/-- The self rows the region finds are the reference's self rows of the same arguments. -/
theorem selfRows_eq (c : Dev nD) :
    (V m c main_v19 : S50000x512.Idx → EReal)
      = Cert.ReferenceIdeal.Read.val_main_v16 (F := Ideal) (m ((c : Thread nD τ).loc main_arg0)) (m ((c : Thread nD τ).loc main_arg2)) := by
  dsimp only [V, hostOps0]
  after_results
  rfl

set_option maxHeartbeats 2000000 in
/-- The neighbour means the region finds are the reference's neighbour means of the same arguments. -/
theorem meanRows_eq (c : Dev nD) :
    (V m c main_v12 : S50000x512.Idx → EReal)
      = Cert.ReferenceIdeal.Read.val_main_v9 (F := Ideal) (m ((c : Thread nD τ).loc main_arg0)) (m ((c : Thread nD τ).loc main_arg1)) := by
  dsimp only [V, hostOps0]
  after_results
  rfl

set_option maxHeartbeats 2000000 in
/-- The first weight array the region finds is the upper 512 rows of the weight matrix. -/
theorem upperHalf_apply (c : Dev nD) (k q : Fin 512) :
    (V m c main_v21 : S512x512.Idx → EReal) (ix2 k q) = m ((c : Thread nD τ).loc main_arg3) (ix2 (Cert.Spec.upper k) q) := by
  have e : (V m c main_v21 : S512x512.Idx → EReal)
      = truncf (F := Ideal) .bf16 (extractStridedSlice S512x512 ![0, 0] (m ((c : Thread nD τ).loc main_arg3)) slices_S1024x512_S512x512_0_0) bitsLt_bf16_f32 := by
    dsimp only [V, hostOps0]
    after_results
  rw [e, truncf_apply]
  refine extractStridedSlice_apply _ _ _ _ _ fun a => ?_
  match a with
  | ⟨0, _⟩ => exact (Nat.zero_add _).symm
  | ⟨1, _⟩ => exact (Nat.zero_add _).symm

set_option maxHeartbeats 2000000 in
/-- The second is the lower 512 rows. -/
theorem lowerHalf_apply (c : Dev nD) (k q : Fin 512) :
    (V m c main_v23 : S512x512.Idx → EReal) (ix2 k q) = m ((c : Thread nD τ).loc main_arg3) (ix2 (Cert.Spec.lower k) q) := by
  have e : (V m c main_v23 : S512x512.Idx → EReal)
      = truncf (F := Ideal) .bf16 (extractStridedSlice S512x512 ![512, 0] (m ((c : Thread nD τ).loc main_arg3)) slices_S1024x512_S512x512_512_0) bitsLt_bf16_f32 := by
    dsimp only [V, hostOps0]
    after_results
  rw [e, truncf_apply]
  refine extractStridedSlice_apply _ _ _ _ _ fun a => ?_
  match a with
  | ⟨0, _⟩ => rfl
  | ⟨1, _⟩ => exact (Nat.zero_add _).symm

end Cert.KernelIdeal.HostSide

end
-- ==== Proof.lean ====
/-
  The certificate's five claims.

  The kernel's result array, after its run, is `Cert.Spec.GHalves` of the four arrays its host operations hand to the
  region (Proof/Blocks.lean): the self rows, the neighbour means and the two halves of the weight matrix.  Those four
  arrays are the reference's own self rows and neighbour means of the same arguments, and the upper and lower 512 rows
  of the weight matrix (Proof/HostSide.lean), so the kernel's result is `Cert.Spec.G` of the reference's self rows, its
  neighbour means and the weight matrix — which is what the reference's result is (Proof/RefIsSpec.lean): a sum of
  1024 products split into its first and last 512 terms.  Only associativity and commutativity of addition on the
  extended reals are used, so the finiteness of the inputs is never opened.  The three frames are the generated
  ones (the reference's being its generated run with the result dropped), and the idealization rewrote nothing, so
  `preserves` has no conjunct.
-/
import proofs.«417036_j67920612819026_3_alg».proof.Defs
import proofs.«417036_j67920612819026_3_alg».proof.Proof.Gen.Kernel
import proofs.«417036_j67920612819026_3_alg».proof.Proof.Gen.Kernel.Skeleton
import proofs.«417036_j67920612819026_3_alg».proof.Proof.Gen.Kernel.Launch
import proofs.«417036_j67920612819026_3_alg».proof.Proof.Gen.Kernel.Points
import proofs.«417036_j67920612819026_3_alg».proof.Proof.Gen.Kernel.Frame
import proofs.«417036_j67920612819026_3_alg».proof.Proof.Gen.KernelIdeal
import proofs.«417036_j67920612819026_3_alg».proof.Proof.Gen.KernelIdeal.Skeleton
import proofs.«417036_j67920612819026_3_alg».proof.Proof.Gen.KernelIdeal.Launch
import proofs.«417036_j67920612819026_3_alg».proof.Proof.Gen.KernelIdeal.Points
import proofs.«417036_j67920612819026_3_alg».proof.Proof.Gen.KernelIdeal.Frame
import proofs.«417036_j67920612819026_3_alg».proof.Proof.Gen.ReferenceIdeal
import proofs.«417036_j67920612819026_3_alg».proof.Proof.Gen.Pre_finite_inputs
import proofs.«417036_j67920612819026_3_alg».proof.Proof.Gen.KernelIdeal.Value
import proofs.«417036_j67920612819026_3_alg».proof.Proof.Gen.ReferenceIdeal.Run
import proofs.«417036_j67920612819026_3_alg».proof.Proof.Gen.ReferenceIdeal.Read
import proofs.«417036_j67920612819026_3_alg».proof.Proof.Spec
import proofs.«417036_j67920612819026_3_alg».proof.Proof.RefIsSpec
import proofs.«417036_j67920612819026_3_alg».proof.Proof.Blocks
import proofs.«417036_j67920612819026_3_alg».proof.Proof.HostSide
import Idealize.ShloMosaic.Adequacy
import Idealize.ShloMosaic.Init

noncomputable section

namespace Cert.Proof

open Idealize.ShloMosaic Idealize.SL.Sem

/-- The three programs run, fault-free, and leave their arguments as they were. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the result array at `Cert.Spec.G` of the
    reference's self rows, its neighbour means and the weight matrix. -/
theorem algebraic : Cert.algebraic_KernelIdeal_ReferenceIdeal := by
  intro m ρ m' ρ' _ hagree
  refine ⟨fun c => Cert.Spec.G
      (Cert.ReferenceIdeal.Read.val_main_v16 (F := Ideal) (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg2)))
      (Cert.ReferenceIdeal.Read.val_main_v9 (F := Ideal) (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1)))
      (m' ((c.tc : Thread Cert.ReferenceIdeal.nD Cert.ReferenceIdeal.τ).loc Cert.ReferenceIdeal.main_arg3)), ?_, ?_⟩
  · refine (θ_run Cert.KernelIdeal.defs _ _).mono (fun _ h c => ⟨(h c).1.trans ?_, (h c).2⟩) (Cert.KernelIdeal.Blocks.run m ρ)
    beta_reduce
    rw [(hagree c).1, (hagree c).2.1, (hagree c).2.2.1, (hagree c).2.2.2]
    rw [Cert.Spec.GHalves_eq_G _ _ _ _ (m ((c.tc : Thread Cert.KernelIdeal.nD Cert.KernelIdeal.τ).loc Cert.KernelIdeal.main_arg3))
      (Cert.KernelIdeal.HostSide.upperHalf_apply m c) (Cert.KernelIdeal.HostSide.lowerHalf_apply m c)]
    show Cert.Spec.G (Cert.KernelIdeal.Gen.V m c Cert.KernelIdeal.main_v19) (Cert.KernelIdeal.Gen.V m c Cert.KernelIdeal.main_v12) _ = _
    rw [Cert.KernelIdeal.HostSide.selfRows_eq, Cert.KernelIdeal.HostSide.meanRows_eq]
  · refine (θ_run Cert.ReferenceIdeal.defs _ _).mono (fun _ h c => ⟨?_, (h c).2⟩) (Cert.ReferenceIdeal.Value.run (F := Ideal) m' ρ')
    rw [(h c).1, Cert.ReferenceIdeal.Read.val_main_v19_eq, Cert.ReferenceIdeal.RefValue.ref_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
